-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S512x128 : Shape := ⟨2, ![512, 128]⟩
abbrev S512 : Shape := ⟨1, ![512]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S512x128 .f32) (main_arg8 : FVec F S512 .f32) (main_arg9 : FVec F S128 .f32) (main_v33 : IVec S_ 1) : IVec S_ 1 :=
  let main_v34 : FVec F S512x128 .f32 := Host.absf main_arg7
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S512x128 .f32) (main_arg6 : FVec F S512 .f32) (main_arg7 : FVec F S512x128 .f32) (main_arg8 : FVec F S512 .f32) (main_arg9 : FVec F S128 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x128 .f32) (main_arg2 : FVec F S10000x128 .f32) (main_arg3 : FVec F S10000x10000 .f32) (main_arg4 : FVec F S128x128 .f32) (main_arg5 : FVec F S512x128 .f32) (main_arg6 : FVec F S512 .f32) (main_arg7 : FVec F S512x128 .f32) (main_arg8 : FVec F S512 .f32) (main_arg9 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S512x128 : Shape := ⟨2, ![512, 128]⟩
abbrev S512 : Shape := ⟨1, ![512]⟩
abbrev S128 : Shape := ⟨1, ![128]⟩
abbrev S128x512 : Shape := ⟨2, ![128, 512]⟩
abbrev S1x512 : Shape := ⟨2, ![1, 512]⟩
abbrev S1x128 : Shape := ⟨2, ![1, 128]⟩
abbrev S2000x128 : Shape := ⟨2, ![2000, 128]⟩
abbrev S400x10000 : Shape := ⟨2, ![400, 10000]⟩
abbrev S400x128 : Shape := ⟨2, ![400, 128]⟩
abbrev S400x512 : Shape := ⟨2, ![400, 512]⟩

abbrev nBuf : Space → Nat
  | .hbm => 19
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x10000, .f32⟩
  | .hbm, ⟨4, _⟩ => ⟨S128x128, .f32⟩
  | .hbm, ⟨5, _⟩ => ⟨S512x128, .f32⟩
  | .hbm, ⟨6, _⟩ => ⟨S512, .f32⟩
  | .hbm, ⟨7, _⟩ => ⟨S512x128, .f32⟩
  | .hbm, ⟨8, _⟩ => ⟨S512, .f32⟩
  | .hbm, ⟨9, _⟩ => ⟨S128, .f32⟩
  | .hbm, ⟨10, _⟩ => ⟨S10000x128, .f32⟩
  | .hbm, ⟨11, _⟩ => ⟨S128x512, .f32⟩
  | .hbm, ⟨12, _⟩ => ⟨S128x512, .f32⟩
  | .hbm, ⟨13, _⟩ => ⟨S512, .f32⟩
  | .hbm, ⟨14, _⟩ => ⟨S1x512, .f32⟩
  | .hbm, ⟨15, _⟩ => ⟨S1x128, .f32⟩
  | .hbm, ⟨16, _⟩ => ⟨S10000x128, .bf16⟩
  | .hbm, ⟨17, _⟩ => ⟨S10000x128, .f32⟩
  | .hbm, ⟨18, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S400x10000, .f32⟩
  | .local _ .vmem, ⟨6, _⟩ => ⟨S400x10000, .f32⟩
  | .local _ .vmem, ⟨7, _⟩ => ⟨S10000x128, .bf16⟩
  | .local _ .vmem, ⟨8, _⟩ => ⟨S400x128, .f32⟩
  | .local _ .vmem, ⟨9, _⟩ => ⟨S400x128, .f32⟩
  | .local _ .vmem, ⟨10, _⟩ => ⟨S400x128, .f32⟩
  | .local _ .vmem, ⟨11, _⟩ => ⟨S400x128, .f32⟩
  | .local _ .vmem, ⟨12, _⟩ => ⟨S128x512, .f32⟩
  | .local _ .vmem, ⟨13, _⟩ => ⟨S128x512, .f32⟩
  | .local _ .vmem, ⟨14, _⟩ => ⟨S1x512, .f32⟩
  | .local _ .vmem, ⟨15, _⟩ => ⟨S1x128, .f32⟩
  | .local _ .vmem, ⟨16, _⟩ => ⟨S400x128, .f32⟩
  | .local _ .vmem, ⟨17, _⟩ => ⟨S400x128, .f32⟩
  | .local _ .vmem, ⟨18, _⟩ => ⟨S400x128, .f32⟩
  | .local _ .vmem, ⟨19, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0_0 : Ref sig .tc := ⟨.hbm, 17, rfl⟩
abbrev main_v0_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S400x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S400x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S512x128_S128x512_1_0 : S512x128.Transposes [1, 0] S128x512
  shapeCasts_S512_S1x512 : S512.ShapeCasts S1x512
  shapeCasts_S128_S1x128 : S128.ShapeCasts S1x128
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S400x128_S400x128_0_0 : ∀ a, (![0, 0] : Fin 2 → Nat) a + S400x128.size a ≤ S400x128.size a
  h_S400x128 : 0 < S400x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  slices_S400x512_o0_0_S400x128 : S400x512.Slices ![0, 0] S400x128
  slices_S400x512_o0_128_S400x128 : S400x512.Slices ![0, 128] S400x128
  slices_S400x512_o0_256_S400x128 : S400x512.Slices ![0, 256] S400x128
  slices_S400x512_o0_384_S400x128 : S400x512.Slices ![0, 384] S400x128
  dot_S2000x128_S128x128_S2000x128_1_0_0_1_n_n_wf : DotDims.WF S2000x128 S128x128 S2000x128 [1] [0] [0] [1] [] []
  dot_S400x10000_S10000x128_S400x128_1_0_0_1_n_n_wf : DotDims.WF S400x10000 S10000x128 S400x128 [1] [0] [0] [1] [] []
  dot_S400x128_S128x512_S400x512_1_0_0_1_n_n_wf : DotDims.WF S400x128 S128x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x512.size a ≤ S128x512.size a
  hwx1_4 : ∀ i : grid1.Coords, EltTy.bits .f32 = 32 ∨ (Rect.block (s := S128x512) S128x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S128x512.size a
  hwx1_5 : ∀ i : grid1.Coords, EltTy.bits .f32 = 32 ∨ (Rect.block (s := S128x512) S128x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x128.size a ≤ S10000x128.size a
  hwx1_8 : ∀ i : grid1.Coords, EltTy.bits .f32 = 32 ∨ (Rect.block (s := S10000x128) S400x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S400x128.size a ≤ S10000x128.size a
  hwx1_9 : ∀ i : grid1.Coords, EltTy.bits .f32 = 32 ∨ (Rect.block (s := S10000x128) S400x128.size (cc1_transform_9 i) (hinb1_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x512_S400x512_1_0_0_1_n_n : DotDims S400x128 S128x512 S400x512 where
  lhsContracting := [1]
  rhsContracting := [0]
  lhsNonContracting := [0]
  rhsNonContracting := [1]
  lhsBatch := []
  rhsBatch := []
  wf := dot_S400x128_S128x512_S400x512_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v6) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S400x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1) S128x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v2) S128x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v4) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v5) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0_0) S400x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v0_1) S400x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S512x128 : Shape := ⟨2, ![512, 128]⟩
abbrev S512 : Shape := ⟨1, ![512]⟩
abbrev S128 : Shape := ⟨1, ![128]⟩
abbrev S_ : Shape := ⟨0, ![]⟩
abbrev S1x128 : Shape := ⟨2, ![1, 128]⟩
abbrev S128x512 : Shape := ⟨2, ![128, 512]⟩
abbrev S10000x512 : Shape := ⟨2, ![10000, 512]⟩
abbrev S1x512 : Shape := ⟨2, ![1, 512]⟩

abbrev nBuf : Space → Nat
  | .hbm => 63
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x10000, .f32⟩
  | .hbm, ⟨4, _⟩ => ⟨S128x128, .f32⟩
  | .hbm, ⟨5, _⟩ => ⟨S512x128, .f32⟩
  | .hbm, ⟨6, _⟩ => ⟨S512, .f32⟩
  | .hbm, ⟨7, _⟩ => ⟨S512x128, .f32⟩
  | .hbm, ⟨8, _⟩ => ⟨S512, .f32⟩
  | .hbm, ⟨9, _⟩ => ⟨S128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S128x512, .f32⟩
  | .hbm, ⟨19, _⟩ => ⟨S10000x512, .f32⟩
  | .hbm, ⟨20, _⟩ => ⟨S1x512, .f32⟩
  | .hbm, ⟨21, _⟩ => ⟨S10000x512, .f32⟩
  | .hbm, ⟨22, _⟩ => ⟨S10000x512, .f32⟩
  | .hbm, ⟨23, _⟩ => ⟨S128x512, .f32⟩
  | .hbm, ⟨24, _⟩ => ⟨S10000x512, .f32⟩
  | .hbm, ⟨25, _⟩ => ⟨S10000x512, .f32⟩
  | .hbm, ⟨26, _⟩ => ⟨S1x512, .f32⟩
  | .hbm, ⟨27, _⟩ => ⟨S10000x512, .f32⟩
  | .hbm, ⟨28, _⟩ => ⟨S10000x512, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x128, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S_, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  transposes_S512x128_S128x512_1_0 : S512x128.Transposes [1, 0] S128x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  slices_S10000x512_S10000x128_0_0 : S10000x512.Slices ![0, 0] S10000x128
  slices_S10000x512_S10000x128_0_128 : S10000x512.Slices ![0, 128] S10000x128
  slices_S10000x512_S10000x128_0_256 : S10000x512.Slices ![0, 256] S10000x128
  slices_S10000x512_S10000x128_0_384 : S10000x512.Slices ![0, 384] S10000x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x512_S10000x512_1_0_0_1_n_n_wf : DotDims.WF S10000x128 S128x512 S10000x512 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf

class Facts : Prop extends Facts₀ where

variable [Facts]
-- ==== Proof.Spec.lean ====
/-
  The graph-convolution LSTM cell as plain extended-real arithmetic, one output entry at a time.

  For node r and hidden unit q, with  sup = x · W_g  (a 10000×128 matrix):
    feat r k  = max (Σ_l adj r l · sup l k) 0 + bias k
    gate r j  = (Σ_k feat r k · W_x j k + Σ_k h r k · W_h j k) + (b_x j + b_h j)        (j < 512)
    cy r q    = c r q · σ(gate r (128+q)) + σ(gate r q) · tanh(gate r (256+q))
    hy r q    = σ(gate r (384+q)) · tanh(cy r q)
  where σ x = 1 / (1 + e^(-x)).  The only algebra between the two programs is the order in which the four
  summands of a gate are added: addition of extended reals is commutative and associative, so no finiteness
  of the inputs is needed.
-/
import Idealize.ShloMosaic.PureOps.Ideal
import Idealize.ShloMosaic.PureOps.Ideal.Laws
import Idealize.ShloMosaic.Lib.ValueIdx

noncomputable section

namespace Cert.CellSpec

open Idealize.ShloMosaic Idealize.ShloMosaic.ValueIdx

/-- One entry of the graph-convolved features: the aggregated support row, rectified, plus the bias. -/
def feat (adjrow : Fin 10000 → EReal) (sup : Fin 10000 → Fin 128 → EReal) (bias : Fin 128 → EReal) (k : Fin 128) : EReal :=
  max (∑ l : Fin 10000, adjrow l * sup l k) 0 + bias k

/-- One pre-activation of the four stacked gates: the two products, then the (already summed) bias. -/
def gate (xs hrow wx wh : Fin 128 → EReal) (b : EReal) : EReal :=
  (∑ k : Fin 128, xs k * wx k + ∑ k : Fin 128, hrow k * wh k) + b

/-- The same four summands in the order input product, input bias, hidden product, hidden bias. -/
theorem gate_eq (xs hrow wx wh : Fin 128 → EReal) (bx bh : EReal) :
    ((∑ k : Fin 128, xs k * wx k + bx) + ∑ k : Fin 128, hrow k * wh k) + bh = gate xs hrow wx wh (bx + bh) := by
  unfold gate
  generalize (∑ k : Fin 128, xs k * wx k) = A
  generalize (∑ k : Fin 128, hrow k * wh k) = B
  rw [add_assoc A bx B, add_comm bx B, ← add_assoc A B bx, add_assoc (A + B) bx bh]

/-- The new cell state from the old one and the input, forget and candidate pre-activations. -/
def cell (c gi gf gc : EReal) : EReal := c * Ideal.logistic gf + Ideal.logistic gi * Ideal.tanh gc

/-- The new hidden state from the output pre-activation and the new cell state. -/
def hidden (go cy : EReal) : EReal := Ideal.logistic go * Ideal.tanh cy

/-- The logistic function spelt with a quotient, as a host program expands it. -/
theorem logistic_eq (x : EReal) : Ideal.div 1 (1 + Ideal.exp (-x)) = Ideal.logistic x := rfl

/-- The word of the float 1.0 is the number one. -/
theorem ofBits_one : Ideal.ofBits .f32 0x3F800000#32 = 1 := by
  simp [Ideal.ofBits, Ideal.ieee]
  rw [← EReal.coe_mul, ← EReal.coe_one]
  norm_num

section Arrays

variable (x h c : (⟨2, ![10000, 128]⟩ : Shape).Idx → EReal) (adj : (⟨2, ![10000, 10000]⟩ : Shape).Idx → EReal)
  (wg : (⟨2, ![128, 128]⟩ : Shape).Idx → EReal) (wx wh : (⟨2, ![512, 128]⟩ : Shape).Idx → EReal)
  (bx bh : (⟨1, ![512]⟩ : Shape).Idx → EReal) (bias : (⟨1, ![128]⟩ : Shape).Idx → EReal)

/-- The support matrix x · W_g. -/
def supA (l : Fin 10000) (k : Fin 128) : EReal := ∑ n : Fin 128, x (ix2 l n) * wg (ix2 n k)

/-- Row r of the graph-convolved features. -/
def featA (r : Fin 10000) (k : Fin 128) : EReal :=
  feat (fun l => adj (ix2 r l)) (supA x wg) (fun k => bias (ix1 k)) k

/-- Pre-activation j of node r. -/
def gateA (r : Fin 10000) (j : Fin 512) : EReal :=
  gate (featA x adj wg bias r) (fun k => h (ix2 r k)) (fun k => wx (ix2 j k)) (fun k => wh (ix2 j k)) (bx (ix1 j) + bh (ix1 j))

/-- The new cell state of node r, unit q. -/
def cyA (r : Fin 10000) (q : Fin 128) : EReal :=
  cell (c (ix2 r q)) (gateA x h adj wg wx wh bx bh bias r ⟨q.val, by omega⟩)
    (gateA x h adj wg wx wh bx bh bias r ⟨128 + q.val, by omega⟩)
    (gateA x h adj wg wx wh bx bh bias r ⟨256 + q.val, by omega⟩)

/-- The new hidden state of node r, unit q. -/
def hyA (r : Fin 10000) (q : Fin 128) : EReal :=
  hidden (gateA x h adj wg wx wh bx bh bias r ⟨384 + q.val, by omega⟩) (cyA x h c adj wg wx wh bx bh bias r q)

/-- The two result arrays, as functions of an array index. -/
def cyArr : (⟨2, ![10000, 128]⟩ : Shape).Idx → EReal := fun i => cyA x h c adj wg wx wh bx bh bias (i 0) (i 1)
def hyArr : (⟨2, ![10000, 128]⟩ : Shape).Idx → EReal := fun i => hyA x h c adj wg wx wh bx bh bias (i 0) (i 1)

end Arrays

end Cert.CellSpec

end
-- ==== Proof.RefValue.lean ====
/-
  The reference program's two results, read entry by entry, are the cell-state and hidden-state arrays of the
  specification.
-/
import proofs.«153322_g90469191123580_cont_sun_m_503_5_alg».proof.Proof.Gen.ReferenceIdeal.Read
import proofs.«153322_g90469191123580_cont_sun_m_503_5_alg».proof.Proof.Spec
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

variable (x0 x1 x2 : (⟨S10000x128, .f32⟩ : BufTy).Contents (Elt Ideal)) (x3 : (⟨S10000x10000, .f32⟩ : BufTy).Contents (Elt Ideal))
  (x4 : (⟨S128x128, .f32⟩ : BufTy).Contents (Elt Ideal)) (x5 : (⟨S512x128, .f32⟩ : BufTy).Contents (Elt Ideal))
  (x6 : (⟨S512, .f32⟩ : BufTy).Contents (Elt Ideal)) (x7 : (⟨S512x128, .f32⟩ : BufTy).Contents (Elt Ideal))
  (x8 : (⟨S512, .f32⟩ : BufTy).Contents (Elt Ideal)) (x9 : (⟨S128, .f32⟩ : BufTy).Contents (Elt Ideal))

/-- The first product: entry (l, k) of x · W_g is the support matrix of the specification. -/
theorem sup_at (l : Fin 10000) (k : Fin 128) :
    val_main_v0 (F := Ideal) x0 x4 (ix2 l k) = Cert.CellSpec.supA x0 x4 l k := by
  rw [val_main_v0_apply]
  unfold Cert.CellSpec.supA
  refine Finset.sum_congr rfl fun n _ => ?_
  have e1 : lidx_main_v0 (ix2 l k) n = ix2 l n :=
    funext fun a => Fin.ext (by match a with | ⟨0, _⟩ => rfl | ⟨1, _⟩ => rfl)
  have e2 : ridx_main_v0 (ix2 l k) n = ix2 n k :=
    funext fun a => Fin.ext (by match a with | ⟨0, _⟩ => rfl | ⟨1, _⟩ => rfl)
  rw [e1, e2]

/-- The aggregated support, rectified against the broadcast zero and shifted by the broadcast bias, is the
    specification's feature entry. -/
theorem feat_at (r : Fin 10000) (k : Fin 128) :
    val_main_v5 (F := Ideal) x0 x3 x4 x9 (ix2 r k) = Cert.CellSpec.featA x0 x3 x4 x9 r k := by
  rw [val_main_v5_apply, val_main_v2_apply, val_main_v1_apply, val_main_call0_v0_apply, val_main_call0_cst_apply,
    val_main_v4_apply, val_main_v3_apply]
  have hs : (∑ l : Fin 10000, x3 (lidx_main_v1 (ix2 r k) l) * val_main_v0 (F := Ideal) x0 x4 (ridx_main_v1 (ix2 r k) l))
      = ∑ l : Fin 10000, x3 (ix2 r l) * Cert.CellSpec.supA x0 x4 l k := by
    refine Finset.sum_congr rfl fun l _ => ?_
    have e1 : lidx_main_v1 (ix2 r k) l = ix2 r l :=
      funext fun a => Fin.ext (by match a with | ⟨0, _⟩ => rfl | ⟨1, _⟩ => rfl)
    have e2 : ridx_main_v1 (ix2 r k) l = ix2 l k :=
      funext fun a => Fin.ext (by match a with | ⟨0, _⟩ => rfl | ⟨1, _⟩ => rfl)
    rw [e1, e2, sup_at]
  have eb : idx_main_v3 (idx_main_v4 (ix2 r k)) = ix1 k :=
    funext fun a => Fin.ext (by match a with | ⟨0, _⟩ => rfl)
  rw [hs, eb]
  simp only [Ideal.addf_def, Ideal.maximumf_def, Ideal.ofBits_def, Ideal.ofBits_zero_f32]
  rfl

/-- The four summands of a pre-activation as the reference adds them: input product, input bias, hidden product,
    hidden bias; regrouped, they are the specification's gate. -/
theorem gate_at (r : Fin 10000) (j : Fin 512) :
    val_main_v16 (F := Ideal) x0 x1 x3 x4 x5 x6 x7 x8 x9 (ix2 r j) = Cert.CellSpec.gateA x0 x1 x3 x4 x5 x7 x6 x8 x9 r j := by
  rw [val_main_v16_apply, val_main_v13_apply, val_main_v10_apply, val_main_v7_apply, val_main_v12_apply,
    val_main_v9_apply, val_main_v8_apply, val_main_v15_apply, val_main_v14_apply]
  have eb1 : idx_main_v8 (idx_main_v9 (ix2 r j)) = ix1 j :=
    funext fun a => Fin.ext (by match a with | ⟨0, _⟩ => rfl)
  have eb2 : idx_main_v14 (idx_main_v15 (ix2 r j)) = ix1 j :=
    funext fun a => Fin.ext (by match a with | ⟨0, _⟩ => rfl)
  have hA : (∑ k : Fin 128, val_main_v5 (F := Ideal) x0 x3 x4 x9 (lidx_main_v7 (ix2 r j) k)
        * val_main_v6 (F := Ideal) x5 (ridx_main_v7 (ix2 r j) k))
      = ∑ k : Fin 128, Cert.CellSpec.featA x0 x3 x4 x9 r k * x5 (ix2 j k) := by
    refine Finset.sum_congr rfl fun k _ => ?_
    have e1 : lidx_main_v7 (ix2 r j) k = ix2 r k :=
      funext fun a => Fin.ext (by match a with | ⟨0, _⟩ => rfl | ⟨1, _⟩ => rfl)
    have e2 : idx_main_v6 (ridx_main_v7 (ix2 r j) k) = ix2 j k :=
      funext fun a => Fin.ext (by match a with | ⟨0, _⟩ => rfl | ⟨1, _⟩ => rfl)
    rw [val_main_v6_apply, e1, e2, feat_at]
  have hB : (∑ k : Fin 128, x1 (lidx_main_v12 (ix2 r j) k) * val_main_v11 (F := Ideal) x7 (ridx_main_v12 (ix2 r j) k))
      = ∑ k : Fin 128, x1 (ix2 r k) * x7 (ix2 j k) := by
    refine Finset.sum_congr rfl fun k _ => ?_
    have e1 : lidx_main_v12 (ix2 r j) k = ix2 r k :=
      funext fun a => Fin.ext (by match a with | ⟨0, _⟩ => rfl | ⟨1, _⟩ => rfl)
    have e2 : idx_main_v11 (ridx_main_v12 (ix2 r j) k) = ix2 j k :=
      funext fun a => Fin.ext (by match a with | ⟨0, _⟩ => rfl | ⟨1, _⟩ => rfl)
    rw [val_main_v11_apply, e1, e2]
  rw [hA, hB, eb1, eb2]
  simp only [Ideal.addf_def]
  exact Cert.CellSpec.gate_eq (Cert.CellSpec.featA x0 x3 x4 x9 r) (fun k => x1 (ix2 r k)) (fun k => x5 (ix2 j k))
    (fun k => x7 (ix2 j k)) (x6 (ix1 j)) (x8 (ix1 j))

/-- The first column slice holds the input pre-activations. -/
theorem gate_in (p : Fin 10000) (q : Fin 128) :
    val_main_v17 (F := Ideal) x0 x1 x3 x4 x5 x6 x7 x8 x9 (ix2 p q) = Cert.CellSpec.gateA x0 x1 x3 x4 x5 x7 x6 x8 x9 p ⟨q.val, by omega⟩ := by
  rw [val_main_v17_apply]
  have e : idx_main_v17 (ix2 p q) = ix2 p (⟨q.val, by omega⟩ : Fin 512) :=
    funext fun a => Fin.ext (by match a with | ⟨0, _⟩ => rfl | ⟨1, _⟩ => rfl)
  rw [e, gate_at]

/-- The second column slice holds the forget pre-activations. -/
theorem gate_forget (p : Fin 10000) (q : Fin 128) :
    val_main_v18 (F := Ideal) x0 x1 x3 x4 x5 x6 x7 x8 x9 (ix2 p q) = Cert.CellSpec.gateA x0 x1 x3 x4 x5 x7 x6 x8 x9 p ⟨128 + q.val, by omega⟩ := by
  rw [val_main_v18_apply]
  have e : idx_main_v18 (ix2 p q) = ix2 p (⟨128 + q.val, by omega⟩ : Fin 512) :=
    funext fun a => Fin.ext (by match a with | ⟨0, _⟩ => rfl | ⟨1, _⟩ => rfl)
  rw [e, gate_at]

/-- The third column slice holds the candidate pre-activations. -/
theorem gate_cand (p : Fin 10000) (q : Fin 128) :
    val_main_v19 (F := Ideal) x0 x1 x3 x4 x5 x6 x7 x8 x9 (ix2 p q) = Cert.CellSpec.gateA x0 x1 x3 x4 x5 x7 x6 x8 x9 p ⟨256 + q.val, by omega⟩ := by
  rw [val_main_v19_apply]
  have e : idx_main_v19 (ix2 p q) = ix2 p (⟨256 + q.val, by omega⟩ : Fin 512) :=
    funext fun a => Fin.ext (by match a with | ⟨0, _⟩ => rfl | ⟨1, _⟩ => rfl)
  rw [e, gate_at]

/-- The fourth column slice holds the output pre-activations. -/
theorem gate_out (p : Fin 10000) (q : Fin 128) :
    val_main_v20 (F := Ideal) x0 x1 x3 x4 x5 x6 x7 x8 x9 (ix2 p q) = Cert.CellSpec.gateA x0 x1 x3 x4 x5 x7 x6 x8 x9 p ⟨384 + q.val, by omega⟩ := by
  rw [val_main_v20_apply]
  have e : idx_main_v20 (ix2 p q) = ix2 p (⟨384 + q.val, by omega⟩ : Fin 512) :=
    funext fun a => Fin.ext (by match a with | ⟨0, _⟩ => rfl | ⟨1, _⟩ => rfl)
  rw [e, gate_at]

/-- The quotient 1 / (1 + e^(-g)) with both ones the broadcast constant is the logistic function of g. -/
theorem quotient_logistic (g : EReal) :
    Ideal.div (Ideal.ofBits .f32 0x3F800000#32) (Ideal.ofBits .f32 0x3F800000#32 + Ideal.exp (-g)) = Ideal.logistic g := by
  rw [Cert.CellSpec.ofBits_one, Cert.CellSpec.logistic_eq]

/-- The new cell state of node p, unit q. -/
theorem cy_at (p : Fin 10000) (q : Fin 128) :
    val_main_v42 (F := Ideal) x0 x1 x2 x3 x4 x5 x6 x7 x8 x9 (ix2 p q) = Cert.CellSpec.cyA x0 x1 x2 x3 x4 x5 x7 x6 x8 x9 p q := by
  rw [val_main_v42_apply, val_main_v40_apply, val_main_v41_apply, val_main_v32_apply, val_main_v26_apply,
    val_main_v33_apply, val_main_v31_apply, val_main_cst_2_apply, val_main_v30_apply, val_main_v29_apply,
    val_main_cst_1_apply, val_main_v28_apply, val_main_v27_apply, val_main_v25_apply, val_main_cst_0_apply,
    val_main_v24_apply, val_main_v23_apply, val_main_cst_apply, val_main_v22_apply, val_main_v21_apply,
    gate_in, gate_forget, gate_cand]
  simp only [Ideal.addf_def, Ideal.mulf_def, Ideal.hostDivf_def, Ideal.hostUnary_exp_def, Ideal.hostUnary_tanh_def,
    Ideal.hostNegf_def, Ideal.negf_def, Ideal.ofBits_def, quotient_logistic]
  rfl

/-- The new hidden state of node p, unit q. -/
theorem hy_at (p : Fin 10000) (q : Fin 128) :
    val_main_v44 (F := Ideal) x0 x1 x2 x3 x4 x5 x6 x7 x8 x9 (ix2 p q) = Cert.CellSpec.hyA x0 x1 x2 x3 x4 x5 x7 x6 x8 x9 p q := by
  rw [val_main_v44_apply, val_main_v39_apply, val_main_v43_apply, val_main_v38_apply, val_main_cst_4_apply,
    val_main_v37_apply, val_main_v36_apply, val_main_cst_3_apply, val_main_v35_apply, val_main_v34_apply,
    gate_out, cy_at]
  simp only [Ideal.addf_def, Ideal.mulf_def, Ideal.hostDivf_def, Ideal.hostUnary_exp_def, Ideal.hostUnary_tanh_def,
    Ideal.hostNegf_def, Ideal.negf_def, Ideal.ofBits_def, quotient_logistic]
  rfl

/-- The reference's second result is the specification's cell-state array. -/
theorem ref_cy : val_main_v42 (F := Ideal) x0 x1 x2 x3 x4 x5 x6 x7 x8 x9 = Cert.CellSpec.cyArr x0 x1 x2 x3 x4 x5 x7 x6 x8 x9 := by
  funext i
  obtain ⟨p, q, rfl⟩ : ∃ (p : Fin 10000) (q : Fin 128), i = ix2 p q := ⟨i 0, i 1, eq_ix2 i⟩
  exact cy_at x0 x1 x2 x3 x4 x5 x6 x7 x8 x9 p q

/-- The reference's first result is the specification's hidden-state array. -/
theorem ref_hy : val_main_v44 (F := Ideal) x0 x1 x2 x3 x4 x5 x6 x7 x8 x9 = Cert.CellSpec.hyArr x0 x1 x2 x3 x4 x5 x7 x6 x8 x9 := by
  funext i
  obtain ⟨p, q, rfl⟩ : ∃ (p : Fin 10000) (q : Fin 128), i = ix2 p q := ⟨i 0, i 1, eq_ix2 i⟩
  exact hy_at x0 x1 x2 x3 x4 x5 x6 x7 x8 x9 p q

end Cert.ReferenceIdeal.RefValue

end
-- ==== Proof.BlockValue.lean ====
/-
  What one grid point of each kernel leaves in its output block, read entry by entry at the exact values: the support
  kernel's block is a plain matrix product; the main kernel's two blocks are the cell and hidden states of the
  specification, computed from the rows of the blocks it loaded.
-/
import proofs.«153322_g90469191123580_cont_sun_m_503_5_alg».proof.Proof.Gen.KernelIdeal.Frame
import proofs.«153322_g90469191123580_cont_sun_m_503_5_alg».proof.Proof.Spec
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.TcCoe
open Idealize.ShloMosaic.ValueIdx

/-! The operand indices of the 2000×128 by 128×128 product, axis by axis. -/

theorem lhs_sup_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_sup_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_sup_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_sup_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The 2000×128 by 128×128 product into the zero accumulator, read at entry (p, j): the sum over the contracted axis. -/
theorem matmul_sup_apply (l : FVec Ideal S2000x128 .f32) (r : FVec Ideal S128x128 .f32) (p : Fin 2000) (j : Fin 128) :
    matmul dot_S2000x128_S128x128_S2000x128_1_0_0_1_n_n none l r (constant (F := Ideal) S2000x128 .f32 0x00000000#32) (ix2 p j)
      = ∑ k : Fin 128, l (ix2 p k) * r (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p j) ((contrEquiv1 dot_S2000x128_S128x128_S2000x128_1_0_0_1_n_n 128 rfl rfl).symm k) = ix2 p k := funext fun a => Fin.ext (by
    match a with
    | ⟨0, _⟩ => exact lhs_sup_0 _ _
    | ⟨1, _⟩ => exact (lhs_sup_1 _ _).trans hk)
  have er : dot_S2000x128_S128x128_S2000x128_1_0_0_1_n_n.rhsIdx (ix2 p j) ((contrEquiv1 dot_S2000x128_S128x128_S2000x128_1_0_0_1_n_n 128 rfl rfl).symm k) = ix2 k j := funext fun a => Fin.ext (by
    match a with
    | ⟨0, _⟩ => exact (rhs_sup_0 _ _).trans hk
    | ⟨1, _⟩ => exact rhs_sup_1 _ _)
  rw [el, er]

/-! The operand indices of the 400×10000 by 10000×128 product, axis by axis. -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The 400×10000 by 10000×128 product into the zero accumulator, read at entry (p, j): the sum over the contracted axis. -/
theorem matmul_agg_apply (l : FVec Ideal S400x10000 .bf16) (r : FVec Ideal S10000x128 .bf16) (p : Fin 400) (j : Fin 128) :
    matmul dot_S400x10000_S10000x128_S400x128_1_0_0_1_n_n none l r (constant (F := Ideal) S400x128 .f32 0x00000000#32) (ix2 p j)
      = ∑ k : Fin 10000, l (ix2 p k) * r (ix2 k j) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p j) ((contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p j) ((contrEquiv1 dot_S400x10000_S10000x128_S400x128_1_0_0_1_n_n 10000 rfl rfl).symm k) = ix2 k j := funext fun a => Fin.ext (by
    match a with
    | ⟨0, _⟩ => exact (rhs_agg_0 _ _).trans hk
    | ⟨1, _⟩ => exact rhs_agg_1 _ _)
  rw [el, er]

/-! The operand indices of the 400×128 by 128×512 product, axis by axis. -/

theorem lhs_gate_0 (i : S400x512.Idx) (q : dot_S400x128_S128x512_S400x512_1_0_0_1_n_n.contr.Idx) :
    (dot_S400x128_S128x512_S400x512_1_0_0_1_n_n.lhsIdx i q 0).val = (i 0).val := by
  unfold DotDims.lhsIdx
  rw [dif_neg (show ¬(0 : Fin S400x128.rank) ∈ dot_S400x128_S128x512_S400x512_1_0_0_1_n_n.lhsBatch by decide), dif_pos (show (0 : Fin S400x128.rank) ∈ dot_S400x128_S128x512_S400x512_1_0_0_1_n_n.lhsNonContracting by decide)]
  rfl
theorem lhs_gate_1 (i : S400x512.Idx) (q : dot_S400x128_S128x512_S400x512_1_0_0_1_n_n.contr.Idx) :
    (dot_S400x128_S128x512_S400x512_1_0_0_1_n_n.lhsIdx i q 1).val = (q ⟨0, by decide⟩).val :=
  dot_S400x128_S128x512_S400x512_1_0_0_1_n_n.lhsIdx_val_of_single rfl i q
theorem rhs_gate_0 (i : S400x512.Idx) (q : dot_S400x128_S128x512_S400x512_1_0_0_1_n_n.contr.Idx) :
    (dot_S400x128_S128x512_S400x512_1_0_0_1_n_n.rhsIdx i q 0).val = (q ⟨0, by decide⟩).val :=
  dot_S400x128_S128x512_S400x512_1_0_0_1_n_n.rhsIdx_val_of_single rfl i q
theorem rhs_gate_1 (i : S400x512.Idx) (q : dot_S400x128_S128x512_S400x512_1_0_0_1_n_n.contr.Idx) :
    (dot_S400x128_S128x512_S400x512_1_0_0_1_n_n.rhsIdx i q 1).val = (i 1).val := by
  unfold DotDims.rhsIdx
  rw [dif_neg (show ¬(1 : Fin S128x512.rank) ∈ dot_S400x128_S128x512_S400x512_1_0_0_1_n_n.rhsBatch by decide), dif_pos (show (1 : Fin S128x512.rank) ∈ dot_S400x128_S128x512_S400x512_1_0_0_1_n_n.rhsNonContracting by decide)]
  rfl

/-- The 400×128 by 128×512 product into the zero accumulator, read at entry (p, j): the sum over the contracted axis. -/
theorem matmul_gate_apply (l : FVec Ideal S400x128 .f32) (r : FVec Ideal S128x512 .f32) (p : Fin 400) (j : Fin 512) :
    matmul dot_S400x128_S128x512_S400x512_1_0_0_1_n_n none l r (constant (F := Ideal) S400x512 .f32 0x00000000#32) (ix2 p j)
      = ∑ k : Fin 128, l (ix2 p k) * r (ix2 k j) := by
  simp only [matmul]
  rw [Ideal.matmul_constant_zero_apply, ← Equiv.sum_comp (contrEquiv1 dot_S400x128_S128x512_S400x512_1_0_0_1_n_n 128 rfl rfl).symm]
  refine Finset.sum_congr rfl fun k _ => ?_
  have hk := contrEquiv1_symm_val dot_S400x128_S128x512_S400x512_1_0_0_1_n_n 128 rfl rfl k
  have el : dot_S400x128_S128x512_S400x512_1_0_0_1_n_n.lhsIdx (ix2 p j) ((contrEquiv1 dot_S400x128_S128x512_S400x512_1_0_0_1_n_n 128 rfl rfl).symm k) = ix2 p k := funext fun a => Fin.ext (by
    match a with
    | ⟨0, _⟩ => exact lhs_gate_0 _ _
    | ⟨1, _⟩ => exact (lhs_gate_1 _ _).trans hk)
  have er : dot_S400x128_S128x512_S400x512_1_0_0_1_n_n.rhsIdx (ix2 p j) ((contrEquiv1 dot_S400x128_S128x512_S400x512_1_0_0_1_n_n 128 rfl rfl).symm k) = ix2 k j := funext fun a => Fin.ext (by
    match a with
    | ⟨0, _⟩ => exact (rhs_gate_0 _ _).trans hk
    | ⟨1, _⟩ => exact rhs_gate_1 _ _)
  rw [el, er]

/-- The offset of a whole-block access: both coordinates zero. -/
theorem zero_off : (![0, 0] : Fin 2 → Nat) = fun _ => 0 := funext fun a => by fin_cases a <;> rfl

/-- Entry (p, q) of the support kernel's output block: row p of the x block times column q of the weight. -/
theorem out0_2_apply (x0 : Vec Ideal S2000x128 .f32) (x1 : Vec Ideal S128x128 .f32) (p : Fin 2000) (q : Fin 128) :
    out0_2 (F := Ideal) x0 x1 (ix2 p q) = ∑ n : Fin 128, x0 (ix2 p n) * x1 (ix2 n q) := by
  unfold out0_2
  rw [View.canon_unit_zero zero_off]
  simp only [View.ld_unit_zero (S := S2000x128) zero_off, View.ld_unit_zero (S := S128x128) zero_off]
  unfold k0_pay1
  exact matmul_sup_apply x0 x1 p q

/-- Pre-activation j of row p of a block, from the blocks the main kernel loads: the adjacency rows x0, the whole
    support matrix x1, the hidden-state rows x2, the two transposed gate weights x4 and x5, the summed gate bias x6
    and the feature bias x7. -/
def blkGate (x0 : Vec Ideal S400x10000 .f32) (x1 : Vec Ideal S10000x128 .bf16) (x2 : Vec Ideal S400x128 .f32)
    (x4 x5 : Vec Ideal S128x512 .f32) (x6 : Vec Ideal S1x512 .f32) (x7 : Vec Ideal S1x128 .f32) (p : Fin 400) (j : Fin 512) : EReal :=
  Cert.CellSpec.gate (Cert.CellSpec.feat (fun l => x0 (ix2 p l)) (fun l k => x1 (ix2 l k)) (fun k => x7 (ix2 (0 : Fin 1) k)))
    (fun k => x2 (ix2 p k)) (fun k => x4 (ix2 k j)) (fun k => x5 (ix2 k j)) (x6 (ix2 (0 : Fin 1) j))

/-- The stacked pre-activations the main kernel computes, read at entry (p, j): the rectified aggregate plus the feature
    bias times the input weight, plus the hidden rows times the hidden weight, plus the summed bias. -/
theorem pay2_apply (x0 : Vec Ideal S400x10000 .f32) (x1 : Vec Ideal S10000x128 .bf16) (x7 : Vec Ideal S1x128 .f32)
    (x4 : Vec Ideal S128x512 .f32) (x2 : Vec Ideal S400x128 .f32) (x5 : Vec Ideal S128x512 .f32) (x6 : Vec Ideal S1x512 .f32)
    (p : Fin 400) (j : Fin 512) :
    k1_pay2 (F := Ideal) x0 x1 x7 x4 x2 x5 x6 (ix2 p j) = blkGate x0 x1 x2 x4 x5 x6 x7 p j := by
  unfold k1_pay2
  simp only [shapeCast_self]
  rw [addf_apply, addf_apply, broadcastTo_1b_ab_apply, matmul_gate_apply, matmul_gate_apply]
  unfold blkGate Cert.CellSpec.gate
  refine congrArg (· + x6 (ix2 (0 : Fin 1) j)) (congrArg (· + ∑ k : Fin 128, x2 (ix2 p k) * x5 (ix2 k j))
    (Finset.sum_congr rfl fun k _ => congrArg (· * x4 (ix2 k j)) ?_))
  rw [addf_apply, maximumf_apply, broadcastTo_1b_ab_apply, broadcast_apply, matmul_agg_apply, Ideal.ofBits_def,
    Ideal.ofBits_zero_f32]
  rfl

/-- The logistic and hyperbolic-tangent maps act entry by entry. -/
theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- The new cell state the main kernel computes, read at entry (p, q): the old state times the forget gate plus the
    input gate times the candidate, the gates being the column blocks 0, 128 and 256 of the pre-activations. -/
theorem pay4_apply (x0 : Vec Ideal S400x10000 .f32) (x1 : Vec Ideal S10000x128 .bf16) (x7 : Vec Ideal S1x128 .f32)
    (x4 : Vec Ideal S128x512 .f32) (x2 : Vec Ideal S400x128 .f32) (x5 : Vec Ideal S128x512 .f32) (x6 : Vec Ideal S1x512 .f32)
    (x3 : Vec Ideal S400x128 .f32) (p : Fin 400) (q : Fin 128) :
    k1_pay4 (F := Ideal) x0 x1 x7 x4 x2 x5 x6 x3 (ix2 p q)
      = Cert.CellSpec.cell (x3 (ix2 p q)) (blkGate x0 x1 x2 x4 x5 x6 x7 p ⟨q.val, by omega⟩)
          (blkGate x0 x1 x2 x4 x5 x6 x7 p ⟨128 + q.val, by omega⟩) (blkGate x0 x1 x2 x4 x5 x6 x7 p ⟨256 + q.val, by omega⟩) := by
  unfold k1_pay4
  rw [addf_apply, mulf_apply, mulf_apply, logistic_at, logistic_at, tanh_at,
    slice2_axis1_apply 0 _ _ p q (⟨q.val, by omega⟩ : Fin 512) (Nat.zero_add _).symm,
    slice2_axis1_apply 128 _ _ p q (⟨128 + q.val, by omega⟩ : Fin 512) rfl,
    slice2_axis1_apply 256 _ _ p q (⟨256 + q.val, by omega⟩ : Fin 512) rfl,
    pay2_apply, pay2_apply, pay2_apply]
  rfl

/-- The output gate the main kernel computes, read at entry (p, q): the logistic of column block 384 of the
    pre-activations. -/
theorem pay3_apply (x0 : Vec Ideal S400x10000 .f32) (x1 : Vec Ideal S10000x128 .bf16) (x7 : Vec Ideal S1x128 .f32)
    (x4 : Vec Ideal S128x512 .f32) (x2 : Vec Ideal S400x128 .f32) (x5 : Vec Ideal S128x512 .f32) (x6 : Vec Ideal S1x512 .f32)
    (p : Fin 400) (q : Fin 128) :
    k1_pay3 (F := Ideal) x0 x1 x7 x4 x2 x5 x6 (ix2 p q)
      = Ideal.logistic (blkGate x0 x1 x2 x4 x5 x6 x7 p ⟨384 + q.val, by omega⟩) := by
  unfold k1_pay3
  rw [logistic_at, slice2_axis1_apply 384 _ _ p q (⟨384 + q.val, by omega⟩ : Fin 512) rfl, pay2_apply]

/-- The new hidden state from the output gate and the new cell state, read at an entry. -/
theorem pay1_apply (g c : FVec Ideal S400x128 .f32) (i : S400x128.Idx) :
    k1_pay1 (F := Ideal) g c i = g i * Ideal.tanh (c i) := by
  unfold k1_pay1
  rw [mulf_apply, tanh_at]

/-- Entry (p, q) of the main kernel's cell-state block. -/
theorem out1_9_apply (x0 : Vec Ideal S400x10000 .f32) (x1 : Vec Ideal S10000x128 .bf16) (x2 x3 : Vec Ideal S400x128 .f32)
    (x4 x5 : Vec Ideal S128x512 .f32) (x6 : Vec Ideal S1x512 .f32) (x7 : Vec Ideal S1x128 .f32) (p : Fin 400) (q : Fin 128) :
    out1_9 (F := Ideal) x0 x1 x2 x3 x4 x5 x6 x7 (ix2 p q)
      = Cert.CellSpec.cell (x3 (ix2 p q)) (blkGate x0 x1 x2 x4 x5 x6 x7 p ⟨q.val, by omega⟩)
          (blkGate x0 x1 x2 x4 x5 x6 x7 p ⟨128 + q.val, by omega⟩) (blkGate x0 x1 x2 x4 x5 x6 x7 p ⟨256 + q.val, by omega⟩) := by
  unfold out1_9
  rw [View.canon_unit_zero zero_off]
  simp only [View.ld_unit_zero (S := S400x10000) zero_off, View.ld_unit_zero (S := S10000x128) zero_off,
    View.ld_unit_zero (S := S1x128) zero_off, View.ld_unit_zero (S := S128x512) zero_off,
    View.ld_unit_zero (S := S400x128) zero_off, View.ld_unit_zero (S := S1x512) zero_off]
  exact pay4_apply x0 x1 x7 x4 x2 x5 x6 x3 p q

/-- Entry (p, q) of the main kernel's hidden-state block. -/
theorem out1_8_apply (x0 : Vec Ideal S400x10000 .f32) (x1 : Vec Ideal S10000x128 .bf16) (x2 x3 : Vec Ideal S400x128 .f32)
    (x4 x5 : Vec Ideal S128x512 .f32) (x6 : Vec Ideal S1x512 .f32) (x7 : Vec Ideal S1x128 .f32) (p : Fin 400) (q : Fin 128) :
    out1_8 (F := Ideal) x0 x1 x2 x3 x4 x5 x6 x7 (ix2 p q)
      = Cert.CellSpec.hidden (blkGate x0 x1 x2 x4 x5 x6 x7 p ⟨384 + q.val, by omega⟩)
          (Cert.CellSpec.cell (x3 (ix2 p q)) (blkGate x0 x1 x2 x4 x5 x6 x7 p ⟨q.val, by omega⟩)
            (blkGate x0 x1 x2 x4 x5 x6 x7 p ⟨128 + q.val, by omega⟩) (blkGate x0 x1 x2 x4 x5 x6 x7 p ⟨256 + q.val, by omega⟩)) := by
  unfold out1_8
  rw [View.canon_unit_zero zero_off]
  simp only [View.ld_unit_zero (S := S400x10000) zero_off, View.ld_unit_zero (S := S10000x128) zero_off,
    View.ld_unit_zero (S := S1x128) zero_off, View.ld_unit_zero (S := S128x512) zero_off,
    View.ld_unit_zero (S := S400x128) zero_off, View.ld_unit_zero (S := S1x512) zero_off]
  rw [pay1_apply, pay3_apply, pay4_apply]
  rfl

end Cert.KernelIdeal.BlockValue

end
-- ==== Proof.SupportArray.lean ====
/-
  The first kernel's output array after its five grid points: every entry (l, k) of the 10000×128 array is the
  product of row l of x with column k of the weight.  Point t writes rows 2000·t … 2000·t + 1999, the five blocks tile
  the array, and the x rows a point loads are the rows it writes.
-/
import proofs.«153322_g90469191123580_cont_sun_m_503_5_alg».proof.Proof.BlockValue

set_option maxRecDepth 16384

noncomputable section

namespace Cert.KernelIdeal.SupportArray

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The two arrays the region reads, as the region finds them: x is the first argument, the weight the fifth. -/
abbrev xArr (c : Dev nD) : S10000x128.Idx → EReal := V c main_arg0
abbrev wArr (c : Dev nD) : S128x128.Idx → EReal := V c main_arg4

/-- The support matrix of those two arrays. -/
def supArr (c : Dev nD) : S10000x128.Idx → EReal :=
  fun i => Cert.CellSpec.supA (xArr V c) (wArr V c) (i 0) (i 1)

/-- The index maps over the five points: the x window and the output window sit on the same row block, which is the
    point's number; every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the support matrix. -/
theorem flushed_eq (c : Dev nD) (t : Fin cfg0.N) :
    (dat0 (F := Ideal) V c).flushed 2 t = ((cfg0.win 2).blk t).view.read (Elt Ideal) (supArr V c) := by
  show (cfg0.win 2).cut (grid0.coords t) ((dat0 (F := Ideal) V c).after 2 t) = _
  rw [after0_2]
  obtain ⟨e0, e1, e2, e3, e4, e5⟩ := idx_facts t
  funext j
  obtain ⟨p, q, rfl⟩ : ∃ (p : Fin 2000) (q : Fin 128), j = ix2 p q := ⟨j 0, j 1, eq_ix2 j⟩
  show out0_2 (F := Ideal) (iblk0 V c 0 t) (iblk0 V c 1 t) (ix2 p q) = supArr V c (((cfg0.win 2).blk t).view.emb (ix2 p q))
  refine (Cert.KernelIdeal.BlockValue.out0_2_apply _ _ p q).trans ?_
  unfold supArr Cert.CellSpec.supA
  refine Finset.sum_congr rfl fun n _ => ?_
  show xArr V c (((cfg0.win 0).blk t).view.emb (ix2 p n)) * wArr V c (((cfg0.win 1).blk t).view.emb (ix2 n q))
    = xArr V c (ix2 ((((cfg0.win 2).blk t).view.emb (ix2 p q)) 0) n) * wArr V c (ix2 n ((((cfg0.win 2).blk t).view.emb (ix2 p q)) 1))
  have h0 : ((cfg0.win 0).blk t).view.emb (ix2 p n) = ix2 ((((cfg0.win 2).blk t).view.emb (ix2 p q)) 0) n := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * n.val = n.val; omega
  have h1 : ((cfg0.win 1).blk t).view.emb (ix2 n q) = ix2 n ((((cfg0.win 2).blk t).view.emb (ix2 p q)) 1) := by
    funext a; apply Fin.ext
    match a with
    | ⟨0, _⟩ => show win0_1.index t (0 : Fin 2) * 128 + 1 * n.val = n.val; omega
    | ⟨1, _⟩ => show win0_1.index t (1 : Fin 2) * 128 + 1 * q.val = win0_2.index t (1 : Fin 2) * 128 + 1 * q.val; omega
  rw [h0, h1]
  rfl

/-- An index of the array is in point t's block iff each coordinate is in the block's range on its axis. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_call0_v0).slice (win0_2.rect t)).set ↔ _
  rw [View.set_slice_whole, Rect.mem_set_unit]
  exact Iff.rfl

/-- Row r lies in the block of point r / 2000. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have hN : cfg0.N = 5 := N_0
  let t : Fin cfg0.N := ⟨(i 0).val / 2000, by rw [hN]; omega⟩
  obtain ⟨e0, e1, e2, e3, e4, e5⟩ := idx_facts t
  have e5' : win0_2.index t (0 : Fin 2) = (i 0).val / 2000 := e5
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region is the support matrix. -/
theorem final (c : Dev nD) : (dat0 (F := Ideal) V c).arrAt 2 cfg0.N = supArr V c :=
  (dat0 (F := Ideal) V c).arrAt_eq_of_cover 2 (supArr V c) (fun t _ => flushed_eq V c t) (cover)

end Cert.KernelIdeal.SupportArray

end
-- ==== Proof.MainArrays.lean ====
/-
  The second kernel's two output arrays after its twenty-five grid points.  Point t handles nodes 400·t … 400·t + 399:
  it loads those rows of the adjacency matrix, of h and of c, and the whole of the support matrix, the two transposed
  gate weights and the two bias rows; it writes the same rows of the two results.  The blocks tile the arrays, so entry
  (r, q) of each result is the cell, resp. hidden, state computed from row r of the arrays the region finds.
-/
import proofs.«153322_g90469191123580_cont_sun_m_503_5_alg».proof.Proof.BlockValue

set_option maxRecDepth 16384

noncomputable section

namespace Cert.KernelIdeal.MainArrays

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.BlockValue (blkGate)

variable (V : (c : Dev nD) → (b : Ref sig .tc) → Buf (Elt Ideal) ((c : Thread nD τ).loc b))

/-- The arrays the region reads, as it finds them: the adjacency matrix, the support matrix, h, c, the two transposed
    gate weights, the summed gate bias as one row, the feature bias as one row. -/
abbrev adjArr (c : Dev nD) : S10000x10000.Idx → EReal := V c main_arg3
abbrev supB (c : Dev nD) : S10000x128.Idx → EReal := V c main_call0_v6
abbrev hArr (c : Dev nD) : S10000x128.Idx → EReal := V c main_arg1
abbrev cArr (c : Dev nD) : S10000x128.Idx → EReal := V c main_arg2
abbrev wxT (c : Dev nD) : S128x512.Idx → EReal := V c main_call0_v1
abbrev whT (c : Dev nD) : S128x512.Idx → EReal := V c main_call0_v2
abbrev gbRow (c : Dev nD) : S1x512.Idx → EReal := V c main_call0_v4
abbrev fbRow (c : Dev nD) : S1x128.Idx → EReal := V c main_call0_v5

/-- Pre-activation j of node r from those arrays. -/
def rowGate (c : Dev nD) (r : Fin 10000) (j : Fin 512) : EReal :=
  Cert.CellSpec.gate (Cert.CellSpec.feat (fun l => adjArr V c (ix2 r l)) (fun l k => supB V c (ix2 l k)) (fun k => fbRow V c (ix2 (0 : Fin 1) k)))
    (fun k => hArr V c (ix2 r k)) (fun k => wxT V c (ix2 k j)) (fun k => whT V c (ix2 k j)) (gbRow V c (ix2 (0 : Fin 1) j))

/-- The new cell state and hidden state of node r, unit q. -/
def cyRow (c : Dev nD) (r : Fin 10000) (q : Fin 128) : EReal :=
  Cert.CellSpec.cell (cArr V c (ix2 r q)) (rowGate V c r ⟨q.val, by omega⟩) (rowGate V c r ⟨128 + q.val, by omega⟩) (rowGate V c r ⟨256 + q.val, by omega⟩)
def hyRow (c : Dev nD) (r : Fin 10000) (q : Fin 128) : EReal :=
  Cert.CellSpec.hidden (rowGate V c r ⟨384 + q.val, by omega⟩) (cyRow V c r q)

/-- The two result arrays. -/
def cyArrV (c : Dev nD) : S10000x128.Idx → EReal := fun i => cyRow V c (i 0) (i 1)
def hyArrV (c : Dev nD) : S10000x128.Idx → EReal := fun i => hyRow V c (i 0) (i 1)

/-- The index maps over the twenty-five points: the four row-blocked windows and the two outputs sit on row block t;
    every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-! ## Each loaded block is the array read at the point's rows -/

theorem read0 (c : Dev nD) (t : Fin cfg1.N) (p : Fin 400) (l : Fin 10000) (r : Fin 10000) (hr : r.val = t.val * 400 + p.val) :
    (iblk1 V c 0 t (ix2 p l) : EReal) = adjArr V c (ix2 r l) := by
  obtain ⟨a0, a1, -⟩ := idx_facts t
  show adjArr V c (((cfg1.win 0).blk t).view.emb (ix2 p l)) = adjArr V c (ix2 r l)
  have h : ((cfg1.win 0).blk t).view.emb (ix2 p l) = ix2 r l := by
    funext a; apply Fin.ext
    match a with
    | ⟨0, _⟩ => show win1_0.index t (0 : Fin 2) * 400 + 1 * p.val = r.val; omega
    | ⟨1, _⟩ => show win1_0.index t (1 : Fin 2) * 10000 + 1 * l.val = l.val; omega
  rw [h]

theorem read1 (c : Dev nD) (t : Fin cfg1.N) (l : Fin 10000) (k : Fin 128) :
    (iblk1 V c 1 t (ix2 l k) : EReal) = supB V c (ix2 l k) := by
  obtain ⟨-, -, a0, a1, -⟩ := idx_facts t
  show supB V c (((cfg1.win 1).blk t).view.emb (ix2 l k)) = supB V c (ix2 l k)
  have h : ((cfg1.win 1).blk t).view.emb (ix2 l k) = ix2 l k := by
    funext a; apply Fin.ext
    match a with
    | ⟨0, _⟩ => show win1_1.index t (0 : Fin 2) * 10000 + 1 * l.val = l.val; omega
    | ⟨1, _⟩ => show win1_1.index t (1 : Fin 2) * 128 + 1 * k.val = k.val; omega
  rw [h]

theorem read2 (c : Dev nD) (t : Fin cfg1.N) (p : Fin 400) (k : Fin 128) (r : Fin 10000) (hr : r.val = t.val * 400 + p.val) :
    (iblk1 V c 2 t (ix2 p k) : EReal) = hArr V c (ix2 r k) := by
  obtain ⟨-, -, -, -, a0, a1, -⟩ := idx_facts t
  show hArr V c (((cfg1.win 2).blk t).view.emb (ix2 p k)) = hArr V c (ix2 r k)
  have h : ((cfg1.win 2).blk t).view.emb (ix2 p k) = ix2 r k := by
    funext a; apply Fin.ext
    match a with
    | ⟨0, _⟩ => show win1_2.index t (0 : Fin 2) * 400 + 1 * p.val = r.val; omega
    | ⟨1, _⟩ => show win1_2.index t (1 : Fin 2) * 128 + 1 * k.val = k.val; omega
  rw [h]

theorem read3 (c : Dev nD) (t : Fin cfg1.N) (p : Fin 400) (k : Fin 128) (r : Fin 10000) (hr : r.val = t.val * 400 + p.val) :
    (iblk1 V c 3 t (ix2 p k) : EReal) = cArr V c (ix2 r k) := by
  obtain ⟨-, -, -, -, -, -, a0, a1, -⟩ := idx_facts t
  show cArr V c (((cfg1.win 3).blk t).view.emb (ix2 p k)) = cArr V c (ix2 r k)
  have h : ((cfg1.win 3).blk t).view.emb (ix2 p k) = ix2 r k := by
    funext a; apply Fin.ext
    match a with
    | ⟨0, _⟩ => show win1_3.index t (0 : Fin 2) * 400 + 1 * p.val = r.val; omega
    | ⟨1, _⟩ => show win1_3.index t (1 : Fin 2) * 128 + 1 * k.val = k.val; omega
  rw [h]

theorem read4 (c : Dev nD) (t : Fin cfg1.N) (k : Fin 128) (j : Fin 512) :
    (iblk1 V c 4 t (ix2 k j) : EReal) = wxT V c (ix2 k j) := by
  obtain ⟨-, -, -, -, -, -, -, -, a0, a1, -⟩ := idx_facts t
  show wxT V c (((cfg1.win 4).blk t).view.emb (ix2 k j)) = wxT V c (ix2 k j)
  have h : ((cfg1.win 4).blk t).view.emb (ix2 k j) = ix2 k j := by
    funext a; apply Fin.ext
    match a with
    | ⟨0, _⟩ => show win1_4.index t (0 : Fin 2) * 128 + 1 * k.val = k.val; omega
    | ⟨1, _⟩ => show win1_4.index t (1 : Fin 2) * 512 + 1 * j.val = j.val; omega
  rw [h]

theorem read5 (c : Dev nD) (t : Fin cfg1.N) (k : Fin 128) (j : Fin 512) :
    (iblk1 V c 5 t (ix2 k j) : EReal) = whT V c (ix2 k j) := by
  obtain ⟨-, -, -, -, -, -, -, -, -, -, a0, a1, -⟩ := idx_facts t
  show whT V c (((cfg1.win 5).blk t).view.emb (ix2 k j)) = whT V c (ix2 k j)
  have h : ((cfg1.win 5).blk t).view.emb (ix2 k j) = ix2 k j := by
    funext a; apply Fin.ext
    match a with
    | ⟨0, _⟩ => show win1_5.index t (0 : Fin 2) * 128 + 1 * k.val = k.val; omega
    | ⟨1, _⟩ => show win1_5.index t (1 : Fin 2) * 512 + 1 * j.val = j.val; omega
  rw [h]

theorem read6 (c : Dev nD) (t : Fin cfg1.N) (j : Fin 512) :
    (iblk1 V c 6 t (ix2 (0 : Fin 1) j) : EReal) = gbRow V c (ix2 (0 : Fin 1) j) := by
  obtain ⟨-, -, -, -, -, -, -, -, -, -, -, -, a0, a1, -⟩ := idx_facts t
  show gbRow V c (((cfg1.win 6).blk t).view.emb (ix2 (0 : Fin 1) j)) = gbRow V c (ix2 (0 : Fin 1) j)
  have h : ((cfg1.win 6).blk t).view.emb (ix2 (0 : Fin 1) j) = ix2 (0 : Fin 1) j := by
    funext a; apply Fin.ext
    match a with
    | ⟨0, _⟩ => show win1_6.index t (0 : Fin 2) * 1 + 1 * (0 : Fin 1).val = (0 : Fin 1).val; simp [a0]
    | ⟨1, _⟩ => show win1_6.index t (1 : Fin 2) * 512 + 1 * j.val = j.val; omega
  rw [h]

theorem read7 (c : Dev nD) (t : Fin cfg1.N) (k : Fin 128) :
    (iblk1 V c 7 t (ix2 (0 : Fin 1) k) : EReal) = fbRow V c (ix2 (0 : Fin 1) k) := by
  obtain ⟨-, -, -, -, -, -, -, -, -, -, -, -, -, -, a0, a1, -⟩ := idx_facts t
  show fbRow V c (((cfg1.win 7).blk t).view.emb (ix2 (0 : Fin 1) k)) = fbRow V c (ix2 (0 : Fin 1) k)
  have h : ((cfg1.win 7).blk t).view.emb (ix2 (0 : Fin 1) k) = ix2 (0 : Fin 1) k := by
    funext a; apply Fin.ext
    match a with
    | ⟨0, _⟩ => show win1_7.index t (0 : Fin 2) * 1 + 1 * (0 : Fin 1).val = (0 : Fin 1).val; simp [a0]
    | ⟨1, _⟩ => show win1_7.index t (1 : Fin 2) * 128 + 1 * k.val = k.val; omega
  rw [h]

/-! ## A block's pre-activation is the row's -/

/-- Blocks that read as the arrays do at node r give node r's pre-activation. -/
theorem blkGate_congr (c : Dev nD) (x0 : Vec Ideal S400x10000 .f32) (x1 : Vec Ideal S10000x128 .bf16) (x2 : Vec Ideal S400x128 .f32)
    (x4 x5 : Vec Ideal S128x512 .f32) (x6 : Vec Ideal S1x512 .f32) (x7 : Vec Ideal S1x128 .f32) (p : Fin 400) (r : Fin 10000) (j : Fin 512)
    (h0 : ∀ l, x0 (ix2 p l) = adjArr V c (ix2 r l)) (h1 : ∀ l k, x1 (ix2 l k) = supB V c (ix2 l k))
    (h2 : ∀ k, x2 (ix2 p k) = hArr V c (ix2 r k)) (h4 : ∀ k, x4 (ix2 k j) = wxT V c (ix2 k j)) (h5 : ∀ k, x5 (ix2 k j) = whT V c (ix2 k j))
    (h6 : x6 (ix2 (0 : Fin 1) j) = gbRow V c (ix2 (0 : Fin 1) j)) (h7 : ∀ k, x7 (ix2 (0 : Fin 1) k) = fbRow V c (ix2 (0 : Fin 1) k)) :
    blkGate x0 x1 x2 x4 x5 x6 x7 p j = rowGate V c r j := by
  unfold blkGate rowGate
  simp only [h0, h1, h2, h4, h5, h6, h7]

/-- The pre-activation a point computes for its row p is that of node 400·t + p. -/
theorem blkGate_eq (c : Dev nD) (t : Fin cfg1.N) (p : Fin 400) (r : Fin 10000) (hr : r.val = t.val * 400 + p.val) (j : Fin 512) :
    blkGate (iblk1 V c 0 t) (iblk1 V c 1 t) (iblk1 V c 2 t) (iblk1 V c 4 t) (iblk1 V c 5 t) (iblk1 V c 6 t) (iblk1 V c 7 t) p j = rowGate V c r j :=
  blkGate_congr V c (iblk1 V c 0 t) (iblk1 V c 1 t) (iblk1 V c 2 t) (iblk1 V c 4 t) (iblk1 V c 5 t) (iblk1 V c 6 t) (iblk1 V c 7 t) p r j
    (fun l => read0 V c t p l r hr) (fun l k => read1 V c t l k) (fun k => read2 V c t p k r hr) (fun k => read4 V c t k j)
    (fun k => read5 V c t k j) (read6 V c t j) (fun k => read7 V c t k)

/-! ## What a point writes back -/

/-- The row of the array that entry (p, ·) of point t's output block lands on. -/
theorem emb9_row (t : Fin cfg1.N) (p : Fin 400) (q : Fin 128) :
    ((((cfg1.win 9).blk t).view.emb (ix2 p q)) 0).val = t.val * 400 + p.val ∧ ((((cfg1.win 9).blk t).view.emb (ix2 p q)) 1).val = q.val := by
  obtain ⟨-, -, -, -, -, -, -, -, -, -, -, -, -, -, -, -, -, -, a0, a1⟩ := idx_facts t
  constructor
  · show win1_9.index t (0 : Fin 2) * 400 + 1 * p.val = _; omega
  · show win1_9.index t (1 : Fin 2) * 128 + 1 * q.val = _; omega
theorem emb8_row (t : Fin cfg1.N) (p : Fin 400) (q : Fin 128) :
    ((((cfg1.win 8).blk t).view.emb (ix2 p q)) 0).val = t.val * 400 + p.val ∧ ((((cfg1.win 8).blk t).view.emb (ix2 p q)) 1).val = q.val := by
  obtain ⟨-, -, -, -, -, -, -, -, -, -, -, -, -, -, -, -, a0, a1, -⟩ := idx_facts t
  constructor
  · show win1_8.index t (0 : Fin 2) * 400 + 1 * p.val = _; omega
  · show win1_8.index t (1 : Fin 2) * 128 + 1 * q.val = _; omega

/-- The cell state at a row and unit given by value. -/
theorem cyRow_congr (c : Dev nD) (r r' : Fin 10000) (q q' : Fin 128) (hr : r = r') (hq : q = q') : cyRow V c r q = cyRow V c r' q' := by
  subst hr; subst hq; rfl
theorem hyRow_congr (c : Dev nD) (r r' : Fin 10000) (q q' : Fin 128) (hr : r = r') (hq : q = q') : hyRow V c r q = hyRow V c r' q' := by
  subst hr; subst hq; rfl

/-- What point t writes back to the cell-state array is block t of `cyArrV`. -/
theorem flushed_eq9 (c : Dev nD) (t : Fin cfg1.N) :
    (dat1 (F := Ideal) V c).flushed 9 t = ((cfg1.win 9).blk t).view.read (Elt Ideal) (cyArrV V c) := by
  show (cfg1.win 9).cut (grid1.coords t) ((dat1 (F := Ideal) V c).after 9 t) = _
  rw [after1_9]
  funext j
  obtain ⟨p, q, rfl⟩ : ∃ (p : Fin 400) (q : Fin 128), j = ix2 p q := ⟨j 0, j 1, eq_ix2 j⟩
  obtain ⟨er, eq⟩ := emb9_row t p q
  show out1_9 (F := Ideal) (iblk1 V c 0 t) (iblk1 V c 1 t) (iblk1 V c 2 t) (iblk1 V c 3 t) (iblk1 V c 4 t) (iblk1 V c 5 t) (iblk1 V c 6 t) (iblk1 V c 7 t) (ix2 p q)
    = cyRow V c ((((cfg1.win 9).blk t).view.emb (ix2 p q)) 0) ((((cfg1.win 9).blk t).view.emb (ix2 p q)) 1)
  have hlt : t.val * 400 + p.val < 10000 := by have := t.isLt; have hN : cfg1.N = 25 := N_1; omega
  refine (Cert.KernelIdeal.BlockValue.out1_9_apply (iblk1 V c 0 t) (iblk1 V c 1 t) (iblk1 V c 2 t) (iblk1 V c 3 t) (iblk1 V c 4 t) (iblk1 V c 5 t) (iblk1 V c 6 t) (iblk1 V c 7 t) p q).trans ?_
  rw [cyRow_congr V c _ ⟨t.val * 400 + p.val, hlt⟩ _ q (Fin.ext er) (Fin.ext eq)]
  unfold cyRow
  rw [blkGate_eq V c t p ⟨t.val * 400 + p.val, hlt⟩ rfl, blkGate_eq V c t p ⟨t.val * 400 + p.val, hlt⟩ rfl, blkGate_eq V c t p ⟨t.val * 400 + p.val, hlt⟩ rfl,
    read3 V c t p q ⟨t.val * 400 + p.val, hlt⟩ rfl]

/-- What point t writes back to the hidden-state array is block t of `hyArrV`. -/
theorem flushed_eq8 (c : Dev nD) (t : Fin cfg1.N) :
    (dat1 (F := Ideal) V c).flushed 8 t = ((cfg1.win 8).blk t).view.read (Elt Ideal) (hyArrV V c) := by
  show (cfg1.win 8).cut (grid1.coords t) ((dat1 (F := Ideal) V c).after 8 t) = _
  rw [after1_8]
  funext j
  obtain ⟨p, q, rfl⟩ : ∃ (p : Fin 400) (q : Fin 128), j = ix2 p q := ⟨j 0, j 1, eq_ix2 j⟩
  obtain ⟨er, eq⟩ := emb8_row t p q
  show out1_8 (F := Ideal) (iblk1 V c 0 t) (iblk1 V c 1 t) (iblk1 V c 2 t) (iblk1 V c 3 t) (iblk1 V c 4 t) (iblk1 V c 5 t) (iblk1 V c 6 t) (iblk1 V c 7 t) (ix2 p q)
    = hyRow V c ((((cfg1.win 8).blk t).view.emb (ix2 p q)) 0) ((((cfg1.win 8).blk t).view.emb (ix2 p q)) 1)
  have hlt : t.val * 400 + p.val < 10000 := by have := t.isLt; have hN : cfg1.N = 25 := N_1; omega
  refine (Cert.KernelIdeal.BlockValue.out1_8_apply (iblk1 V c 0 t) (iblk1 V c 1 t) (iblk1 V c 2 t) (iblk1 V c 3 t) (iblk1 V c 4 t) (iblk1 V c 5 t) (iblk1 V c 6 t) (iblk1 V c 7 t) p q).trans ?_
  rw [hyRow_congr V c _ ⟨t.val * 400 + p.val, hlt⟩ _ q (Fin.ext er) (Fin.ext eq)]
  unfold hyRow cyRow
  rw [blkGate_eq V c t p ⟨t.val * 400 + p.val, hlt⟩ rfl, blkGate_eq V c t p ⟨t.val * 400 + p.val, hlt⟩ rfl, blkGate_eq V c t p ⟨t.val * 400 + p.val, hlt⟩ rfl,
    blkGate_eq V c t p ⟨t.val * 400 + p.val, hlt⟩ rfl, read3 V c t p q ⟨t.val * 400 + p.val, hlt⟩ rfl]

/-! ## The blocks tile the arrays -/

theorem mem_blk9 (t : Fin cfg1.N) (i : S10000x128.Idx) :
    i ∈ ((cfg1.win 9).blk t).view.set ↔ ∀ a : Fin 2, win1_9.index t a * S400x128.size a ≤ (i a).val ∧ (i a).val < win1_9.index t a * S400x128.size a + S400x128.size a := by
  show i ∈ ((View.whole main_v0_1).slice (win1_9.rect t)).set ↔ _
  rw [View.set_slice_whole, Rect.mem_set_unit]
  exact Iff.rfl
theorem mem_blk8 (t : Fin cfg1.N) (i : S10000x128.Idx) :
    i ∈ ((cfg1.win 8).blk t).view.set ↔ ∀ a : Fin 2, win1_8.index t a * S400x128.size a ≤ (i a).val ∧ (i a).val < win1_8.index t a * S400x128.size a + S400x128.size a := by
  show i ∈ ((View.whole main_v0_0).slice (win1_8.rect t)).set ↔ _
  rw [View.set_slice_whole, Rect.mem_set_unit]
  exact Iff.rfl

/-- Row r lies in the block of point r / 400. -/
theorem cover9 (i : S10000x128.Idx) : ∃ t : Fin cfg1.N, (cfg1.win 9).flush t = true ∧ i ∈ ((cfg1.win 9).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  obtain ⟨-, -, -, -, -, -, -, -, -, -, -, -, -, -, -, -, -, -, a0, a1⟩ := idx_facts t
  have a0' : win1_9.index t (0 : Fin 2) = (i 0).val / 400 := a0
  refine ⟨t, flush1_9 t, ?_⟩
  rw [mem_blk9]
  intro a
  match a with
  | ⟨0, _⟩ => show win1_9.index t (0 : Fin 2) * 400 ≤ (i 0).val ∧ (i 0).val < win1_9.index t (0 : Fin 2) * 400 + 400; omega
  | ⟨1, _⟩ => show win1_9.index t (1 : Fin 2) * 128 ≤ (i 1).val ∧ (i 1).val < win1_9.index t (1 : Fin 2) * 128 + 128; omega
theorem cover8 (i : S10000x128.Idx) : ∃ t : Fin cfg1.N, (cfg1.win 8).flush t = true ∧ i ∈ ((cfg1.win 8).blk t).view.set := by
  have hi0 : (i 0).val < 10000 := (i 0).isLt
  have hi1 : (i 1).val < 128 := (i 1).isLt
  have hN : cfg1.N = 25 := N_1
  let t : Fin cfg1.N := ⟨(i 0).val / 400, by rw [hN]; omega⟩
  obtain ⟨-, -, -, -, -, -, -, -, -, -, -, -, -, -, -, -, a0, a1, -⟩ := idx_facts t
  have a0' : win1_8.index t (0 : Fin 2) = (i 0).val / 400 := a0
  refine ⟨t, flush1_8 t, ?_⟩
  rw [mem_blk8]
  intro a
  match a with
  | ⟨0, _⟩ => show win1_8.index t (0 : Fin 2) * 400 ≤ (i 0).val ∧ (i 0).val < win1_8.index t (0 : Fin 2) * 400 + 400; omega
  | ⟨1, _⟩ => show win1_8.index t (1 : Fin 2) * 128 ≤ (i 1).val ∧ (i 1).val < win1_8.index t (1 : Fin 2) * 128 + 128; omega

/-- The two output arrays after the region. -/
theorem final9 (c : Dev nD) : (dat1 (F := Ideal) V c).arrAt 9 cfg1.N = cyArrV V c :=
  (dat1 (F := Ideal) V c).arrAt_eq_of_cover 9 (cyArrV V c) (fun t _ => flushed_eq9 V c t) cover9
theorem final8 (c : Dev nD) : (dat1 (F := Ideal) V c).arrAt 8 cfg1.N = hyArrV V c :=
  (dat1 (F := Ideal) V c).arrAt_eq_of_cover 8 (hyArrV V c) (fun t _ => flushed_eq8 V c t) cover8

end Cert.KernelIdeal.MainArrays

end
-- ==== Proof.Between.lean ====
/-
  Between the two kernels the program transposes the two gate weights, adds the two gate biases and lays the sum out as
  one row, lays the feature bias out as one row, and narrows the support matrix (the identity on exact values).  Read at
  an entry, each array the second kernel finds is therefore an entry of an argument array as launched, or of the support
  matrix of the arguments.
-/
import proofs.«153322_g90469191123580_cont_sun_m_503_5_alg».proof.Proof.SupportArray
import proofs.«153322_g90469191123580_cont_sun_m_503_5_alg».proof.Proof.MainArrays
import Idealize.ShloMosaic.Lib.StableHlo.Run
import Idealize.ShloMosaic.Lib.ValueLayout

set_option maxRecDepth 16384

noncomputable section

namespace Cert.KernelIdeal.Between

open Cert.KernelIdeal Cert.KernelIdeal.Gen Idealize.ShloMosaic Idealize.ShloMosaic.TcCoe Idealize.SL.Sem Idealize.ShloMosaic.StableHlo
open Idealize.ShloMosaic.ValueIdx
open Cert.KernelIdeal.MainArrays Cert.KernelIdeal.SupportArray

variable (m : (ℓ : Loc nD τ sig) → Buf (Elt Ideal) ℓ) (ρ : Dev nD → PrngReg)

/-- The ten argument arrays as launched. -/
abbrev mX (c : Dev nD) : S10000x128.Idx → EReal := m ((c.tc : Thread nD τ).loc main_arg0)
abbrev mH (c : Dev nD) : S10000x128.Idx → EReal := m ((c.tc : Thread nD τ).loc main_arg1)
abbrev mC (c : Dev nD) : S10000x128.Idx → EReal := m ((c.tc : Thread nD τ).loc main_arg2)
abbrev mAdj (c : Dev nD) : S10000x10000.Idx → EReal := m ((c.tc : Thread nD τ).loc main_arg3)
abbrev mWg (c : Dev nD) : S128x128.Idx → EReal := m ((c.tc : Thread nD τ).loc main_arg4)
abbrev mWx (c : Dev nD) : S512x128.Idx → EReal := m ((c.tc : Thread nD τ).loc main_arg5)
abbrev mBx (c : Dev nD) : S512.Idx → EReal := m ((c.tc : Thread nD τ).loc main_arg6)
abbrev mWh (c : Dev nD) : S512x128.Idx → EReal := m ((c.tc : Thread nD τ).loc main_arg7)
abbrev mBh (c : Dev nD) : S512.Idx → EReal := m ((c.tc : Thread nD τ).loc main_arg8)
abbrev mBias (c : Dev nD) : S128.Idx → EReal := m ((c.tc : Thread nD τ).loc main_arg9)

/-- A buffer other than the six the host operations between the kernels write keeps its contents across them. -/
theorem W2_of_unwritten (c : Dev nD) (b : Ref sig .tc)
    (h1 : b ≠ main_call0_v1) (h2 : b ≠ main_call0_v2) (h3 : b ≠ main_call0_v3) (h4 : b ≠ main_call0_v4) (h5 : b ≠ main_call0_v5) (h6 : b ≠ main_call0_v6) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, StableHlo.binary_writes, StableHlo.reshape_writes, Finset.mem_singleton]
    exact ⟨StableHlo.devRef_ne_of_ne h1, StableHlo.devRef_ne_of_ne h2, StableHlo.devRef_ne_of_ne h3, StableHlo.devRef_ne_of_ne h4,
      StableHlo.devRef_ne_of_ne h5, StableHlo.devRef_ne_of_ne h6⟩))

/-! ## The arrays the second kernel reads unchanged -/

theorem adj_eq (c : Dev nD) : adjArr (V2 m ρ) c = mAdj m c :=
  calc W2 m ρ c (Proc.devRef .tc main_arg3)
    _ = W1 m ρ c (Proc.devRef .tc main_arg3) := W2_of_unwritten m ρ c main_arg3 (by decide) (by decide) (by decide) (by decide) (by decide) (by decide)
    _ = W0 m ρ c (Proc.devRef .tc main_arg3) := W1_of_ne m ρ c main_arg3 (by decide)
    _ = m ((c : Thread nD τ).loc main_arg3) := rfl

theorem h_eq (c : Dev nD) : hArr (V2 m ρ) c = mH m c :=
  calc W2 m ρ c (Proc.devRef .tc main_arg1)
    _ = W1 m ρ c (Proc.devRef .tc main_arg1) := W2_of_unwritten m ρ c main_arg1 (by decide) (by decide) (by decide) (by decide) (by decide) (by decide)
    _ = W0 m ρ c (Proc.devRef .tc main_arg1) := W1_of_ne m ρ c main_arg1 (by decide)
    _ = m ((c : Thread nD τ).loc main_arg1) := rfl

theorem c_eq (c : Dev nD) : cArr (V2 m ρ) c = mC m c :=
  calc W2 m ρ c (Proc.devRef .tc main_arg2)
    _ = W1 m ρ c (Proc.devRef .tc main_arg2) := W2_of_unwritten m ρ c main_arg2 (by decide) (by decide) (by decide) (by decide) (by decide) (by decide)
    _ = W0 m ρ c (Proc.devRef .tc main_arg2) := W1_of_ne m ρ c main_arg2 (by decide)
    _ = m ((c : Thread nD τ).loc main_arg2) := rfl

/-! ## The arrays the host operations make -/

/-- The first kernel leaves the launch contents of every buffer that is not one of its three arrays. -/
theorem W1_wx (c : Dev nD) : (W1 m ρ c (Proc.devRef .tc main_arg5) : S512x128.Idx → EReal) = mWx m c := W1_of_ne m ρ c main_arg5 (by decide)
theorem W1_wh (c : Dev nD) : (W1 m ρ c (Proc.devRef .tc main_arg7) : S512x128.Idx → EReal) = mWh m c := W1_of_ne m ρ c main_arg7 (by decide)
theorem W1_bx (c : Dev nD) : (W1 m ρ c (Proc.devRef .tc main_arg6) : S512.Idx → EReal) = mBx m c := W1_of_ne m ρ c main_arg6 (by decide)
theorem W1_bh (c : Dev nD) : (W1 m ρ c (Proc.devRef .tc main_arg8) : S512.Idx → EReal) = mBh m c := W1_of_ne m ρ c main_arg8 (by decide)
theorem W1_bias (c : Dev nD) : (W1 m ρ c (Proc.devRef .tc main_arg9) : S128.Idx → EReal) = mBias m c := W1_of_ne m ρ c main_arg9 (by decide)
/-- Its output array is the support matrix of x and the weight as launched. -/
theorem W1_sup (c : Dev nD) : (W1 m ρ c (Proc.devRef .tc main_call0_v0) : S10000x128.Idx → EReal) = supArr (V0 m ρ) c :=
  (W1_arr m ρ c 2).trans (SupportArray.final (V0 m ρ) c)

theorem wxT_eq (c : Dev nD) : wxT (V2 m ρ) c = transpose S128x512 [1, 0] (mWx m c) transposes_S512x128_S128x512_1_0 := by
  rw [← W1_wx m ρ c]
  show StableHlo.after hostOps1 (W1 m ρ c) (Proc.devRef .tc main_call0_v1) = _
  after_results
  rfl

theorem whT_eq (c : Dev nD) : whT (V2 m ρ) c = transpose S128x512 [1, 0] (mWh m c) transposes_S512x128_S128x512_1_0 := by
  rw [← W1_wh m ρ c]
  show StableHlo.after hostOps1 (W1 m ρ c) (Proc.devRef .tc main_call0_v2) = _
  after_results
  rfl

theorem gb_eq (c : Dev nD) : gbRow (V2 m ρ) c = shapeCast S1x512 (addf (F := Ideal) (φ := .f32) (mBx m c) (mBh m c)) shapeCasts_S512_S1x512 := by
  rw [← W1_bx m ρ c, ← W1_bh m ρ c]
  show StableHlo.after hostOps1 (W1 m ρ c) (Proc.devRef .tc main_call0_v4) = _
  after_results
  rfl

theorem fb_eq (c : Dev nD) : fbRow (V2 m ρ) c = shapeCast S1x128 (mBias m c) shapeCasts_S128_S1x128 := by
  rw [← W1_bias m ρ c]
  show StableHlo.after hostOps1 (W1 m ρ c) (Proc.devRef .tc main_call0_v5) = _
  after_results
  rfl

theorem supB_eq (c : Dev nD) : supB (V2 m ρ) c = supArr (V0 m ρ) c := by
  rw [← W1_sup m ρ c]
  show StableHlo.after hostOps1 (W1 m ρ c) (Proc.devRef .tc main_call0_v6) = _
  after_results
  rfl

/-! ## Read at an entry -/

theorem wxT_at (c : Dev nD) (k : Fin 128) (j : Fin 512) : wxT (V2 m ρ) c (ix2 k j) = mWx m c (ix2 j k) := by
  rw [wxT_eq]; exact transpose_ix2_apply _ _ k j
theorem whT_at (c : Dev nD) (k : Fin 128) (j : Fin 512) : whT (V2 m ρ) c (ix2 k j) = mWh m c (ix2 j k) := by
  rw [whT_eq]; exact transpose_ix2_apply _ _ k j
theorem gb_at (c : Dev nD) (j : Fin 512) : gbRow (V2 m ρ) c (ix2 (0 : Fin 1) j) = mBx m c (ix1 j) + mBh m c (ix1 j) := by
  rw [gb_eq]; exact shapeCast_a_1a_apply _ _ (0 : Fin 1) j
theorem fb_at (c : Dev nD) (k : Fin 128) : fbRow (V2 m ρ) c (ix2 (0 : Fin 1) k) = mBias m c (ix1 k) := by
  rw [fb_eq]; exact shapeCast_a_1a_apply _ _ (0 : Fin 1) k
theorem supB_at (c : Dev nD) (l : Fin 10000) (k : Fin 128) : supB (V2 m ρ) c (ix2 l k) = Cert.CellSpec.supA (mX m c) (mWg m c) l k := by
  rw [supB_eq]; rfl

/-! ## The second kernel's rows are the specification's -/

/-- A pre-activation depends only on the rows and entries it reads. -/
theorem gate_feat_congr {a a' : Fin 10000 → EReal} {s s' : Fin 10000 → Fin 128 → EReal} {fb fb' hr hr' wa wa' wb wb' : Fin 128 → EReal} {g g' : EReal}
    (ha : a = a') (hs : s = s') (hfb : fb = fb') (hhr : hr = hr') (hwa : wa = wa') (hwb : wb = wb') (hg : g = g') :
    Cert.CellSpec.gate (Cert.CellSpec.feat a s fb) hr wa wb g = Cert.CellSpec.gate (Cert.CellSpec.feat a' s' fb') hr' wa' wb' g' := by
  subst ha; subst hs; subst hfb; subst hhr; subst hwa; subst hwb; subst hg; rfl

theorem rowGate_eq (c : Dev nD) (r : Fin 10000) (j : Fin 512) :
    rowGate (V2 m ρ) c r j = Cert.CellSpec.gateA (mX m c) (mH m c) (mAdj m c) (mWg m c) (mWx m c) (mWh m c) (mBx m c) (mBh m c) (mBias m c) r j := by
  unfold rowGate Cert.CellSpec.gateA Cert.CellSpec.featA
  exact gate_feat_congr (funext fun l => congrFun (adj_eq m ρ c) (ix2 r l)) (funext fun l => funext fun k => supB_at m ρ c l k)
    (funext fun k => fb_at m ρ c k) (funext fun k => congrFun (h_eq m ρ c) (ix2 r k)) (funext fun k => wxT_at m ρ c k j)
    (funext fun k => whT_at m ρ c k j) (gb_at m ρ c j)

theorem cyRow_eq (c : Dev nD) (r : Fin 10000) (q : Fin 128) :
    cyRow (V2 m ρ) c r q = Cert.CellSpec.cyA (mX m c) (mH m c) (mC m c) (mAdj m c) (mWg m c) (mWx m c) (mWh m c) (mBx m c) (mBh m c) (mBias m c) r q := by
  unfold cyRow Cert.CellSpec.cyA
  rw [rowGate_eq m ρ c r, rowGate_eq m ρ c r, rowGate_eq m ρ c r,
    show cArr (V2 m ρ) c (ix2 r q) = mC m c (ix2 r q) from congrFun (c_eq m ρ c) (ix2 r q)]

theorem hyRow_eq (c : Dev nD) (r : Fin 10000) (q : Fin 128) :
    hyRow (V2 m ρ) c r q = Cert.CellSpec.hyA (mX m c) (mH m c) (mC m c) (mAdj m c) (mWg m c) (mWx m c) (mWh m c) (mBx m c) (mBh m c) (mBias m c) r q := by
  unfold hyRow Cert.CellSpec.hyA
  rw [rowGate_eq m ρ c r, cyRow_eq m ρ c r q]

theorem cyArr_eq (c : Dev nD) :
    cyArrV (V2 m ρ) c = Cert.CellSpec.cyArr (mX m c) (mH m c) (mC m c) (mAdj m c) (mWg m c) (mWx m c) (mWh m c) (mBx m c) (mBh m c) (mBias m c) :=
  funext fun i => cyRow_eq m ρ c (i 0) (i 1)

theorem hyArr_eq (c : Dev nD) :
    hyArrV (V2 m ρ) c = Cert.CellSpec.hyArr (mX m c) (mH m c) (mC m c) (mAdj m c) (mWg m c) (mWx m c) (mWh m c) (mBx m c) (mBh m c) (mBias m c) :=
  funext fun i => hyRow_eq m ρ c (i 0) (i 1)

end Cert.KernelIdeal.Between

end
-- ==== Proof.KernelValue.lean ====
/-
  The idealized kernel's run with its two results read: after every weakly fair execution the first result array is the
  specification's hidden-state array of the ten argument arrays as launched, the second its cell-state array, and the
  arguments are unchanged.  The last boundary's contents at a result array are what the second kernel's write-backs leave
  there; the arrays it read are the arguments, or made from them by the first kernel and the host operations between.
-/
import proofs.«153322_g90469191123580_cont_sun_m_503_5_alg».proof.Proof.KernelRun
import proofs.«153322_g90469191123580_cont_sun_m_503_5_alg».proof.Proof.Between

noncomputable section

namespace Cert.KernelIdeal.KValue

open Cert.KernelIdeal Cert.KernelIdeal.Gen Idealize.ShloMosaic Idealize.ShloMosaic.TcCoe Idealize.SL.Sem
open Cert.KernelIdeal.Between

variable (m : (ℓ : Loc nD τ sig) → Buf (Elt Ideal) ℓ) (ρ : Dev nD → PrngReg)

/-- The hidden-state array of the arguments as launched. -/
abbrev hyOf (c : Dev nD) : S10000x128.Idx → EReal :=
  Cert.CellSpec.hyArr (mX m c) (mH m c) (mC m c) (mAdj m c) (mWg m c) (mWx m c) (mWh m c) (mBx m c) (mBh m c) (mBias m c)
/-- The cell-state array of the arguments as launched. -/
abbrev cyOf (c : Dev nD) : S10000x128.Idx → EReal :=
  Cert.CellSpec.cyArr (mX m c) (mH m c) (mC m c) (mAdj m c) (mWg m c) (mWx m c) (mWh m c) (mBx m c) (mBh m c) (mBias m c)

theorem last_hy (c : Dev nD) : W3 m ρ c (Proc.devRef .tc main_v0_0) = hyOf m c :=
  (W3_arr m ρ c 8).trans ((Cert.KernelIdeal.MainArrays.final8 (V2 m ρ) c).trans (hyArr_eq m ρ c))

theorem last_cy (c : Dev nD) : W3 m ρ c (Proc.devRef .tc main_v0_1) = cyOf m c :=
  (W3_arr m ρ c 9).trans ((Cert.KernelIdeal.MainArrays.final9 (V2 m ρ) c).trans (cyArr_eq m ρ c))

theorem run : θ_run defs (onTc (τ := τ) (main (F := Ideal))) ⟨m, fun _ => 0, ρ⟩ (fun r => ∀ c : Dev nD,
      r.2.mem ((c.tc : Thread nD τ).loc main_v0_0) = hyOf m c
      ∧ r.2.mem ((c.tc : Thread nD τ).loc main_v0_1) = cyOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (last_hy m ρ c), (h c).2.1.trans (last_cy m ρ c), (h c).2.2⟩)
    (Cert.KernelIdeal.KRun.run (F := Ideal) m ρ)

end Cert.KernelIdeal.KValue

end
-- ==== Proof.lean ====
/-
  A graph-convolution LSTM cell: the kernel computes the support matrix x · W_g in a first pass over five row blocks,
  then, in a second pass over twenty-five row blocks, aggregates it with the adjacency rows, rectifies, adds the bias,
  forms the four gate pre-activations from the features and the old hidden state, and applies the LSTM gate arithmetic;
  the reference does the same with whole-array operations.  At exact values both end with, for node r and unit q,
    cy r q = c r q · σ(gate r (128+q)) + σ(gate r q) · tanh(gate r (256+q)),   hy r q = σ(gate r (384+q)) · tanh(cy r q),
  the kernel adding the two gate biases to each other before adding them to the products, the reference adding them one
  after the other: the same sum, since addition of extended reals is commutative and associative.  The narrowing of the
  support matrix and of the adjacency block before the aggregation is the identity on exact values, and the kernel's
  logistic is the quotient 1 / (1 + e^(-x)) the reference spells out.

  The three frames are the generated ones (the reference's is its run with the results dropped); nothing was rewritten
  when the kernel was idealized, so the preservation claim is trivially true; the value claim joins the kernel's run
  (its two result arrays read block by block and through the host operations between the two passes) to the reference's
  run (read operation by operation) at the specification's two arrays.
-/
import proofs.«153322_g90469191123580_cont_sun_m_503_5_alg».proof.Defs
import proofs.«153322_g90469191123580_cont_sun_m_503_5_alg».proof.Proof.Gen.Kernel
import proofs.«153322_g90469191123580_cont_sun_m_503_5_alg».proof.Proof.Gen.Kernel.Frame
import proofs.«153322_g90469191123580_cont_sun_m_503_5_alg».proof.Proof.Gen.KernelIdeal
import proofs.«153322_g90469191123580_cont_sun_m_503_5_alg».proof.Proof.Gen.KernelIdeal.Frame
import proofs.«153322_g90469191123580_cont_sun_m_503_5_alg».proof.Proof.Gen.ReferenceIdeal
import proofs.«153322_g90469191123580_cont_sun_m_503_5_alg».proof.Proof.Gen.ReferenceIdeal.Run
import proofs.«153322_g90469191123580_cont_sun_m_503_5_alg».proof.Proof.Gen.ReferenceIdeal.Read
import proofs.«153322_g90469191123580_cont_sun_m_503_5_alg».proof.Proof.Gen.Pre_finite_inputs
import proofs.«153322_g90469191123580_cont_sun_m_503_5_alg».proof.Proof.RefValue
import proofs.«153322_g90469191123580_cont_sun_m_503_5_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the specification's hidden-state and cell-state arrays of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.hyOf m c, fun c => Cert.KernelIdeal.KValue.cyOf m c, Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v44_eq, Cert.ReferenceIdeal.RefValue.ref_hy,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
  · rw [Cert.ReferenceIdeal.Read.val_main_v42_eq, Cert.ReferenceIdeal.RefValue.ref_cy,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
